-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_v33

def fn {F : FTy → Type} [FloatOps F] (main_arg0 : FVec F S50000x64 .f32) (main_arg1 : FVec F S800000x64 .f32) (main_arg2 : IVec S800000 32) (main_arg3 : IVec S800000 32) (main_arg4 : FVec F S192x64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 36
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S800000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  gather_S50000x64_S800000x1_S800000x64_1_0_n_n_0_1_164_wf : GatherDims.WF S50000x64 S800000x1 S800000x64 [1] [0] [] [0] [] 1 ![1, 64]
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S800000x64.size a
  hwx0_0 : ∀ i : grid0.Coords, EltTy.bits .f32 = 32 ∨ (Rect.block (s := S800000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S800000x64.size a
  hwx0_1 : ∀ i : grid0.Coords, EltTy.bits .f32 = 32 ∨ (Rect.block (s := S800000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S800000x64.size a
  hwx0_2 : ∀ i : grid0.Coords, EltTy.bits .f32 = 32 ∨ (Rect.block (s := S800000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S800000x64.size a
  hwx0_11 : ∀ i : grid0.Coords, EltTy.bits .f32 = 32 ∨ (Rect.block (s := S800000x64) S2000x64.size (cc0_transform_11 i) (hinb0_11 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v6) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S2000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S800000x192 : Shape := ⟨2, ![800000, 192]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x192, .f32⟩
  | .hbm, ⟨29, _⟩ => ⟨S800000x64, .f32⟩
  | .hbm, ⟨30, _⟩ => ⟨S1x64, .f32⟩
  | .hbm, ⟨31, _⟩ => ⟨S800000x64, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S800000x64, .f32⟩
  | .hbm, ⟨43, _⟩ => ⟨S1x64, .f32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S800000, .f32⟩
  | .hbm, ⟨58, _⟩ => ⟨S800000x1, .f32⟩
  | .hbm, ⟨59, _⟩ => ⟨S_, .f32⟩
  | .hbm, ⟨60, _⟩ => ⟨S800000x1, .f32⟩
  | .hbm, ⟨61, _⟩ => ⟨S800000x1, .f32⟩
  | .hbm, ⟨62, _⟩ => ⟨S800000x64, .f32⟩
  | .hbm, ⟨63, _⟩ => ⟨S800000x64, .f32⟩
  | .hbm, ⟨64, _⟩ => ⟨S800000x64, .f32⟩
  | .hbm, ⟨65, _⟩ => ⟨S_, .f32⟩
  | .hbm, ⟨66, _⟩ => ⟨S800000, .f32⟩
  | .hbm, ⟨67, _⟩ => ⟨S800000x1, .f32⟩
  | .hbm, ⟨68, _⟩ => ⟨S_, .f32⟩
  | .hbm, ⟨69, _⟩ => ⟨S800000x1, .f32⟩
  | .hbm, ⟨70, _⟩ => ⟨S800000x1, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S800000x1, .f32⟩
  | .hbm, ⟨75, _⟩ => ⟨S800000x1, .f32⟩
  | .hbm, ⟨76, _⟩ => ⟨S800000x1, .f32⟩
  | .hbm, ⟨77, _⟩ => ⟨S800000x64, .f32⟩
  | .hbm, ⟨78, _⟩ => ⟨S800000x64, .f32⟩
  | .hbm, ⟨79, _⟩ => ⟨S1x64, .f32⟩
  | .hbm, ⟨80, _⟩ => ⟨S800000x64, .f32⟩
  | .hbm, ⟨81, _⟩ => ⟨S800000x64, .f32⟩
  | .hbm, ⟨82, _⟩ => ⟨S1x64, .f32⟩
  | .hbm, ⟨83, _⟩ => ⟨S800000x64, .f32⟩
  | .hbm, ⟨84, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v24 : Ref sig .tc := ⟨.hbm, 54, rfl⟩
abbrev main_v25 : Ref sig .tc := ⟨.hbm, 55, rfl⟩
abbrev main_cst : Ref sig .tc := ⟨.hbm, 56, rfl⟩
abbrev main_v26 : Ref sig .tc := ⟨.hbm, 57, rfl⟩
abbrev main_v27 : Ref sig .tc := ⟨.hbm, 58, rfl⟩
abbrev main_cst_3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_cst_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  reducesTo_S800000x64_S800000_d1 : S800000x64.ReducesTo [1] S800000
  h_S_ : 0 < S_.numel
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf

class Facts : Prop extends Facts₀ where

variable [Facts]
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.RowMath.lean ====
/-
  One edge's update as a function of that edge's three feature rows and the weights, over the extended
  reals: a linear layer on the three rows with its own 64 x 64 weight block each, the sigmoid-weighted
  unit x * sigma(x), a second linear layer, the unit again, the residual, and a layer normalisation of the
  64 channels. Two laws join the two programs: a sum over 192 joined channels is the sum of the three
  sums over 64, and the sigmoid written out as 1 / (1 + exp (-x)) with the literal 1.0 is the sigmoid.
-/
import Idealize.ShloMosaic.PureOps.Ideal
import Idealize.ShloMosaic.PureOps.Ideal.Laws
import Mathlib.Algebra.BigOperators.Fin

noncomputable section

namespace Cert.EdgeUpdate

open Idealize.ShloMosaic

/-- The divisor of both means, the float 64.0, as the word both programs print. -/
abbrev c64 : EReal := Ideal.ofBits .f32 0x42800000#32
/-- The offset under the reciprocal square root, as the word both programs print. -/
abbrev cEps : EReal := Ideal.ofBits .f32 0x3727C5AC#32

/-- The sigmoid-weighted unit. -/
def silu (x : EReal) : EReal := x * Ideal.logistic x

/-- The first layer before its unit: each of the three rows against its own weight block, then the bias. -/
def pre1 (s d e : Fin 64 → EReal) (Ws Wd We : Fin 64 → Fin 64 → EReal) (b1 : Fin 64 → EReal) (j : Fin 64) : EReal :=
  (∑ k, s k * Ws k j) + (∑ k, d k * Wd k j) + (∑ k, e k * We k j) + b1 j

/-- The second layer before its unit. -/
def pre2 (a : Fin 64 → EReal) (W2 : Fin 64 → Fin 64 → EReal) (b2 : Fin 64 → EReal) (j : Fin 64) : EReal :=
  (∑ k, a k * W2 k j) + b2 j

/-- The mean of the 64 channels: their sum over the float 64.0. -/
def mean (x : Fin 64 → EReal) : EReal := Ideal.div (∑ k, x k) c64

/-- A channel less the mean. -/
def centred (x : Fin 64 → EReal) (j : Fin 64) : EReal := x j - mean x

/-- Layer normalisation: the centred channel times the reciprocal root of (variance + offset), scaled and shifted. -/
def layerNorm (x g bt : Fin 64 → EReal) (j : Fin 64) : EReal :=
  centred x j * Ideal.rsqrt (mean (fun k => centred x k * centred x k) + cEps) * g j + bt j

/-- The residual the normalisation sees: the edge row plus the two-layer unit of the three rows. -/
def residual (s d e : Fin 64 → EReal) (Ws Wd We : Fin 64 → Fin 64 → EReal) (b1 : Fin 64 → EReal)
    (W2 : Fin 64 → Fin 64 → EReal) (b2 : Fin 64 → EReal) (j : Fin 64) : EReal :=
  e j + silu (pre2 (fun k => silu (pre1 s d e Ws Wd We b1 k)) W2 b2 j)

/-- One edge's updated row. -/
def edgeRow (s d e : Fin 64 → EReal) (Ws Wd We : Fin 64 → Fin 64 → EReal) (b1 : Fin 64 → EReal)
    (W2 : Fin 64 → Fin 64 → EReal) (b2 g bt : Fin 64 → EReal) : Fin 64 → EReal :=
  layerNorm (residual s d e Ws Wd We b1 W2 b2) g bt

/-- A sum over 192 = 64 + 64 + 64 indices is the sum of the sums over the three stretches of 64. -/
theorem sum_three_stretches (f : Fin 192 → EReal) :
    ∑ k, f k = (∑ k : Fin 64, f ⟨k.val, by omega⟩) + (∑ k : Fin 64, f ⟨64 + k.val, by omega⟩)
      + (∑ k : Fin 64, f ⟨128 + k.val, by omega⟩) := by
  have h1 := Fin.sum_univ_add (M := EReal) (a := 128) (b := 64) f
  have h2 := Fin.sum_univ_add (M := EReal) (a := 64) (b := 64) (fun i : Fin (64 + 64) => f (Fin.castAdd 64 i))
  rw [h1, h2]
  rfl

/-- The float literal 1.0 is the real 1. -/
theorem ofBits_one_f32 : Ideal.ofBits .f32 0x3F800000#32 = 1 := by
  simp [Ideal.ofBits, Ideal.ieee]
  rw [← EReal.coe_mul, ← EReal.coe_one]
  exact congrArg _ (by norm_num)

/-- The sigmoid written out with the literal 1.0 — 1.0 / (1.0 + exp (-x)) — is the sigmoid. -/
theorem logistic_written_out (x : EReal) :
    Ideal.div (Ideal.ofBits .f32 0x3F800000#32) (Ideal.ofBits .f32 0x3F800000#32 + Ideal.exp (-x)) = Ideal.logistic x := by
  rw [ofBits_one_f32]; rfl

end Cert.EdgeUpdate

end
-- ==== Proof.TileRead.lean ====
/-
  The kernel body's tile operations read at one entry (p, q) as the row functions of RowMath: the
  first layer (three products into zero accumulators, added, plus a bias row), the second layer (one
  product plus a bias row) and the layer normalisation (two lane sums kept as columns, divided by 64.0,
  the reciprocal root, a scale row and a shift row). A change of float format is the identity on the
  extended reals, so the bf16 operands of the products are the f32 tiles themselves.
-/
import Idealize.ShloMosaic.Lib.ValueIdx
import Idealize.ShloMosaic.Lib.ValueLayout
import Idealize.ShloMosaic.Lib.Pipeline.Value
import Idealize.ShloMosaic.PureOps.Ideal.Laws
import proofs.«116071_j87522843558205_1_alg».proof.Proof.LibTile
import proofs.«116071_j87522843558205_1_alg».proof.Proof.LibPlainProduct
import proofs.«116071_j87522843558205_1_alg».proof.Proof.RowMath

noncomputable section

namespace Cert.EdgeUpdate.Tile

open Idealize.ShloMosaic Idealize.ShloMosaic.ValueIdx Cert.EdgeUpdate

variable {n : ℕ}

/-- A [1, 64] row, re-cast to its own shape and spread over n rows, reads at (p, q) the row at q. -/
theorem rowSpread_apply (b : FVec Ideal ⟨2, ![1, 64]⟩ .f32)
    (hs : (⟨2, ![1, 64]⟩ : Shape).ShapeCasts ⟨2, ![1, 64]⟩)
    (hb : (⟨2, ![1, 64]⟩ : Shape).Broadcasts ⟨2, ![n, 64]⟩) (p : Fin n) (q : Fin 64) :
    broadcastTo ⟨2, ![n, 64]⟩ (shapeCast ⟨2, ![1, 64]⟩ b hs) hb (ix2 p q) = b (ix2 (0 : Fin 1) q) :=
  (broadcastTo_1b_ab_apply _ hb p q).trans (congrFun (shapeCast_self b hs) (ix2 (0 : Fin 1) q))

/-- The first layer before its unit, at (p, q): row p of each of the three tiles against its own weight block, plus the bias. -/
theorem pre1_apply (dd : DotDims ⟨2, ![n, 64]⟩ ⟨2, ![64, 64]⟩ ⟨2, ![n, 64]⟩) (hd : dd = DotDims.plain n 64 64)
    (prec : Option ContractPrecision)
    (s d e : FVec Ideal ⟨2, ![n, 64]⟩ .f32) (Ws Wd We : FVec Ideal ⟨2, ![64, 64]⟩ .f32) (b1 : FVec Ideal ⟨2, ![1, 64]⟩ .f32)
    (hx : (⟨2, ![n, 64]⟩ : Shape).ShapeCasts ⟨2, ![n, 64]⟩) (hw : (⟨2, ![64, 64]⟩ : Shape).ShapeCasts ⟨2, ![64, 64]⟩)
    (hs : (⟨2, ![1, 64]⟩ : Shape).ShapeCasts ⟨2, ![1, 64]⟩) (hb : (⟨2, ![1, 64]⟩ : Shape).Broadcasts ⟨2, ![n, 64]⟩)
    (hlt : FTy.bf16.bits < FTy.f32.bits) (p : Fin n) (q : Fin 64) :
    addf (addf (addf
          (matmul (F := Ideal) dd prec (truncf .bf16 (shapeCast ⟨2, ![n, 64]⟩ s hx) hlt) (truncf .bf16 (shapeCast ⟨2, ![64, 64]⟩ Ws hw) hlt)
            (constant (F := Ideal) ⟨2, ![n, 64]⟩ .f32 0x00000000#32))
          (matmul (F := Ideal) dd prec (truncf .bf16 (shapeCast ⟨2, ![n, 64]⟩ d hx) hlt) (truncf .bf16 (shapeCast ⟨2, ![64, 64]⟩ Wd hw) hlt)
            (constant (F := Ideal) ⟨2, ![n, 64]⟩ .f32 0x00000000#32)))
          (matmul (F := Ideal) dd prec (truncf .bf16 e hlt) (truncf .bf16 (shapeCast ⟨2, ![64, 64]⟩ We hw) hlt)
            (constant (F := Ideal) ⟨2, ![n, 64]⟩ .f32 0x00000000#32)))
        (broadcastTo ⟨2, ![n, 64]⟩ (shapeCast ⟨2, ![1, 64]⟩ b1 hs) hb) (ix2 p q)
      = pre1 (fun k => s (ix2 p k)) (fun k => d (ix2 p k)) (fun k => e (ix2 p k))
          (fun k j => Ws (ix2 k j)) (fun k j => Wd (ix2 k j)) (fun k j => We (ix2 k j)) (fun j => b1 (ix2 (0 : Fin 1) j)) q := by
  subst hd
  rw [shapeCast_self s hx, shapeCast_self d hx, shapeCast_self Ws hw, shapeCast_self Wd hw, shapeCast_self We hw]
  exact congrArg₂ (· + ·)
    (congrArg₂ (· + ·)
      (congrArg₂ (· + ·)
        (Cert.PlainProduct.matmul_zero_apply prec _ _ p q)
        (Cert.PlainProduct.matmul_zero_apply prec _ _ p q))
      (Cert.PlainProduct.matmul_zero_apply prec _ _ p q))
    (rowSpread_apply b1 hs hb p q)

/-- The second layer before its unit, at (p, q): row p of the tile against the weights, plus the bias. -/
theorem pre2_apply (dd : DotDims ⟨2, ![n, 64]⟩ ⟨2, ![64, 64]⟩ ⟨2, ![n, 64]⟩) (hd : dd = DotDims.plain n 64 64)
    (prec : Option ContractPrecision)
    (a : FVec Ideal ⟨2, ![n, 64]⟩ .f32) (W2 : FVec Ideal ⟨2, ![64, 64]⟩ .f32) (b2 : FVec Ideal ⟨2, ![1, 64]⟩ .f32)
    (hs : (⟨2, ![1, 64]⟩ : Shape).ShapeCasts ⟨2, ![1, 64]⟩) (hb : (⟨2, ![1, 64]⟩ : Shape).Broadcasts ⟨2, ![n, 64]⟩)
    (hlt : FTy.bf16.bits < FTy.f32.bits) (p : Fin n) (q : Fin 64) :
    addf (matmul (F := Ideal) dd prec (truncf .bf16 a hlt) (truncf .bf16 W2 hlt) (constant (F := Ideal) ⟨2, ![n, 64]⟩ .f32 0x00000000#32))
        (broadcastTo ⟨2, ![n, 64]⟩ (shapeCast ⟨2, ![1, 64]⟩ b2 hs) hb) (ix2 p q)
      = pre2 (fun k => a (ix2 p k)) (fun k j => W2 (ix2 k j)) (fun j => b2 (ix2 (0 : Fin 1) j)) q := by
  subst hd
  exact congrArg₂ (· + ·) (Cert.PlainProduct.matmul_zero_apply prec _ _ p q) (rowSpread_apply b2 hs hb p q)

section norm

variable (x : FVec Ideal ⟨2, ![n, 64]⟩ .f32)
  (hr : Shape.Reduces ⟨2, ![n, 64]⟩ [1] ⟨1, ![n]⟩) (hφ : FKind.Formats .f32)
  (hacc : (0x00000000#32 : BitVec 32) = 0x00000000#32)
  (hc : (⟨1, ![n]⟩ : Shape).ShapeCasts ⟨2, ![n, 1]⟩)
  (hcb : (⟨2, ![n, 1]⟩ : Shape).Broadcasts ⟨2, ![n, 64]⟩)

/-- The column of row means: the lane sums kept as a column, over the float 64.0. -/
def meanCol : FVec Ideal ⟨2, ![n, 1]⟩ .f32 :=
  divf (shapeCast ⟨2, ![n, 1]⟩ (multiReduction (F := Ideal) .add [1] ⟨1, ![n]⟩ x 0x00000000#32 hr hφ hacc) hc)
    (broadcast ⟨2, ![n, 1]⟩ (Scalar.ofBits (F := Ideal) .f32 0x42800000#32))

theorem meanCol_apply (p : Fin n) (u : Fin 1) : meanCol x hr hφ hacc hc (ix2 p u) = mean (fun k => x (ix2 p k)) :=
  congrArg (fun t => Ideal.div t c64) (Cert.Tile.rowSumCol_apply x hr hφ hacc hc p u)

/-- The tile less its column of row means. -/
def centredTile : FVec Ideal ⟨2, ![n, 64]⟩ .f32 := subf x (broadcastTo ⟨2, ![n, 64]⟩ (meanCol x hr hφ hacc hc) hcb)

theorem centredTile_apply (p : Fin n) (k : Fin 64) :
    centredTile x hr hφ hacc hc hcb (ix2 p k) = centred (fun j => x (ix2 p j)) k :=
  congrArg (fun t => x (ix2 p k) - t)
    ((Cert.Tile.broadcastTo_a1_ab_apply _ hcb p k).trans (meanCol_apply x hr hφ hacc hc p 0))

/-- The layer normalisation of a tile's rows, at (p, q). -/
theorem layerNorm_apply (g bt : FVec Ideal ⟨2, ![1, 64]⟩ .f32)
    (hs : (⟨2, ![1, 64]⟩ : Shape).ShapeCasts ⟨2, ![1, 64]⟩) (hb : (⟨2, ![1, 64]⟩ : Shape).Broadcasts ⟨2, ![n, 64]⟩)
    (p : Fin n) (q : Fin 64) :
    addf (mulf (mulf (centredTile x hr hφ hacc hc hcb)
            (broadcastTo ⟨2, ![n, 64]⟩
              (rsqrt (addf (meanCol (mulf (centredTile x hr hφ hacc hc hcb) (centredTile x hr hφ hacc hc hcb)) hr hφ hacc hc)
                (broadcast ⟨2, ![n, 1]⟩ (Scalar.ofBits (F := Ideal) .f32 0x3727C5AC#32)))) hcb))
          (broadcastTo ⟨2, ![n, 64]⟩ (shapeCast ⟨2, ![1, 64]⟩ g hs) hb))
        (broadcastTo ⟨2, ![n, 64]⟩ (shapeCast ⟨2, ![1, 64]⟩ bt hs) hb) (ix2 p q)
      = layerNorm (fun k => x (ix2 p k)) (fun j => g (ix2 (0 : Fin 1) j)) (fun j => bt (ix2 (0 : Fin 1) j)) q := by
  have hvar : meanCol (mulf (centredTile x hr hφ hacc hc hcb) (centredTile x hr hφ hacc hc hcb)) hr hφ hacc hc (ix2 p (0 : Fin 1))
      = mean (fun k => centred (fun j => x (ix2 p j)) k * centred (fun j => x (ix2 p j)) k) :=
    (meanCol_apply _ hr hφ hacc hc p 0).trans
      (congrArg mean (funext fun k => congrArg₂ (· * ·) (centredTile_apply x hr hφ hacc hc hcb p k) (centredTile_apply x hr hφ hacc hc hcb p k)))
  exact congrArg₂ (· + ·)
    (congrArg₂ (· * ·)
      (congrArg₂ (· * ·) (centredTile_apply x hr hφ hacc hc hcb p q)
        ((Cert.Tile.broadcastTo_a1_ab_apply _ hcb p q).trans (congrArg (fun t => Ideal.rsqrt (t + cEps)) hvar)))
      (rowSpread_apply g hs hb p q))
    (rowSpread_apply bt hs hb p q)

end norm

end Cert.EdgeUpdate.Tile

end
-- ==== Proof.KernelBlock.lean ====
/-
  What the kernel body stores, at one entry: entry (p, q) of the stored tile is the updated row
  (RowMath's edgeRow) of row p of the three loaded feature tiles and the loaded weights, at channel q.
  The body's value is the layer normalisation of (edge tile + unit of the second layer), and the second
  layer's operand is the unit of the first layer: the tile reads of TileRead, composed.
-/
import proofs.«116071_j87522843558205_1_alg».proof.Proof.Gen.KernelIdeal.Skeleton
import proofs.«116071_j87522843558205_1_alg».proof.Proof.TileRead

noncomputable section

namespace Cert.KernelIdeal.Block

open Cert.KernelIdeal Cert.KernelIdeal.Gen Idealize.ShloMosaic Idealize.ShloMosaic.ValueIdx Cert.EdgeUpdate

/-- The printed contraction — the left operand's columns against the right operand's rows — is the plain matrix product's. -/
theorem dot_plain : dot_S2000x64_S64x64_S2000x64_1_0_0_1_n_n = DotDims.plain 2000 64 64 := rfl

variable (x0 x1 x2 : Vec Ideal S2000x64 .f32) (x3 x4 x5 : Vec Ideal S64x64 .f32) (x6 : Vec Ideal S1x64 .f32)
  (x7 : Vec Ideal S64x64 .f32) (x8 x9 x10 : Vec Ideal S1x64 .f32)

/-- The second layer before its unit, at (p, k): over the unit of the first layer of row p. -/
theorem secondLayer_apply (p : Fin 2000) (k : Fin 64) :
    k0_pay2 (F := Ideal) x2 x0 x1 x3 x4 x5 x6 x7 x8 (ix2 p k)
      = pre2 (fun k' => silu (pre1 (fun j => x0 (ix2 p j)) (fun j => x1 (ix2 p j)) (fun j => x2 (ix2 p j))
            (fun a b => x3 (ix2 a b)) (fun a b => x4 (ix2 a b)) (fun a b => x5 (ix2 a b)) (fun j => x6 (ix2 (0 : Fin 1) j)) k'))
          (fun a b => x7 (ix2 a b)) (fun j => x8 (ix2 (0 : Fin 1) j)) k := by
  unfold k0_pay2
  refine (Tile.pre2_apply _ dot_plain none _ x7 x8 _ _ _ p k).trans ?_
  exact congrArg (fun a => pre2 a _ _ k)
    (funext fun k' => congrArg silu (Tile.pre1_apply _ dot_plain none x0 x1 x2 x3 x4 x5 x6 _ _ _ _ _ p k'))

/-- The stored tile at (p, q) is the updated row of row p, at channel q. -/
theorem stored_apply (p : Fin 2000) (q : Fin 64) :
    k0_pay1 (F := Ideal) x2 (k0_pay2 x2 x0 x1 x3 x4 x5 x6 x7 x8) (k0_pay3 x2 x0 x1 x3 x4 x5 x6 x7 x8) x9 x10 (ix2 p q)
      = edgeRow (fun j => x0 (ix2 p j)) (fun j => x1 (ix2 p j)) (fun j => x2 (ix2 p j))
          (fun a b => x3 (ix2 a b)) (fun a b => x4 (ix2 a b)) (fun a b => x5 (ix2 a b)) (fun j => x6 (ix2 (0 : Fin 1) j))
          (fun a b => x7 (ix2 a b)) (fun j => x8 (ix2 (0 : Fin 1) j))
          (fun j => x9 (ix2 (0 : Fin 1) j)) (fun j => x10 (ix2 (0 : Fin 1) j)) q := by
  unfold k0_pay1 k0_pay3
  refine (Tile.layerNorm_apply
    (addf x2 (mulf (k0_pay2 x2 x0 x1 x3 x4 x5 x6 x7 x8) (logistic (k0_pay2 x2 x0 x1 x3 x4 x5 x6 x7 x8))))
    _ _ _ _ _ x9 x10 _ _ p q).trans ?_
  exact congrArg (fun r => layerNorm r _ _ q)
    (funext fun k => congrArg (fun t => x2 (ix2 p k) + silu t) (secondLayer_apply x0 x1 x2 x3 x4 x5 x6 x7 x8 p k))

end Cert.KernelIdeal.Block

end
-- ==== Proof.EdgeArray.lean ====
/-
  The whole result as one function of the arrays: row r of the [800000, 64] result is the updated row
  (RowMath's edgeRow) of row r of the gathered source rows, of the gathered destination rows and of the
  edge features, with the first layer's weight blocks the rows 0-63, 64-127 and 128-191 of the
  [192, 64] weight array.
-/
import Idealize.ShloMosaic.Lib.ValueIdx
import proofs.«116071_j87522843558205_1_alg».proof.Proof.RowMath

noncomputable section

namespace Cert.EdgeUpdate

open Idealize.ShloMosaic Idealize.ShloMosaic.ValueIdx

/-- Row a of the weight block that starts at row off of the [192, 64] weights. -/
def weightBlock (W1 : FVec Ideal ⟨2, ![192, 64]⟩ .f32) (off : ℕ) (h : off + 64 ≤ 192) (a b : Fin 64) : EReal :=
  W1 (ix2 (⟨off + a.val, by omega⟩ : Fin 192) b)

/-- The result array: each row the updated row of that edge. -/
def wholeArray (src dst edge : FVec Ideal ⟨2, ![800000, 64]⟩ .f32) (W1 : FVec Ideal ⟨2, ![192, 64]⟩ .f32)
    (b1 : FVec Ideal ⟨1, ![64]⟩ .f32) (W2 : FVec Ideal ⟨2, ![64, 64]⟩ .f32) (b2 g bt : FVec Ideal ⟨1, ![64]⟩ .f32) :
    FVec Ideal ⟨2, ![800000, 64]⟩ .f32 :=
  fun i => edgeRow (fun j => src (ix2 (i 0) j)) (fun j => dst (ix2 (i 0) j)) (fun j => edge (ix2 (i 0) j))
    (weightBlock W1 0 (by omega)) (weightBlock W1 64 (by omega)) (weightBlock W1 128 (by omega))
    (fun j => b1 (ix1 j)) (fun a b => W2 (ix2 a b)) (fun j => b2 (ix1 j)) (fun j => g (ix1 j)) (fun j => bt (ix1 j)) (i 1)

theorem wholeArray_apply (src dst edge : FVec Ideal ⟨2, ![800000, 64]⟩ .f32) (W1 : FVec Ideal ⟨2, ![192, 64]⟩ .f32)
    (b1 : FVec Ideal ⟨1, ![64]⟩ .f32) (W2 : FVec Ideal ⟨2, ![64, 64]⟩ .f32) (b2 g bt : FVec Ideal ⟨1, ![64]⟩ .f32)
    (r : Fin 800000) (q : Fin 64) :
    wholeArray src dst edge W1 b1 W2 b2 g bt (ix2 r q)
      = edgeRow (fun j => src (ix2 r j)) (fun j => dst (ix2 r j)) (fun j => edge (ix2 r j))
          (weightBlock W1 0 (by omega)) (weightBlock W1 64 (by omega)) (weightBlock W1 128 (by omega))
          (fun j => b1 (ix1 j)) (fun a b => W2 (ix2 a b)) (fun j => b2 (ix1 j)) (fun j => g (ix1 j)) (fun j => bt (ix1 j)) q := rfl

end Cert.EdgeUpdate

end
-- ==== Proof.KernelArray.lean ====
/-
  The kernel's result array. Grid point t stages rows 2000 t … 2000 t + 1999 of the gathered source
  rows, the gathered destination rows and the edge features, and the whole of every weight array; the
  host wrote the three weight blocks as row slices of the [192, 64] weights and each bias, scale and shift
  row as a [1, 64] re-shape. So point t writes back rows 2000 t … of the whole-array function, the 400
  blocks fill the [800000, 64] result, and the run ends with the result at that function.
-/
import proofs.«116071_j87522843558205_1_alg».proof.Proof.KernelIdealValue
import proofs.«116071_j87522843558205_1_alg».proof.Proof.KernelBlock
import proofs.«116071_j87522843558205_1_alg».proof.Proof.EdgeArray
import Idealize.ShloMosaic.Lib.StableHlo.Run
import Idealize.ShloMosaic.Lib.ValueLayout
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.EdgeUpdate
open Idealize.ShloMosaic.Pipeline (Dat)

variable (m : (ℓ : Loc nD τ sig) → Buf (Elt Ideal) ℓ) (ρ : Dev nD → PrngReg)

/-! ## The arrays the host wrote before the region, at an index -/

/-- The weight block that starts at row 0: the slice's entry (a, b) is the weights' entry (a, b). -/
theorem block0_apply (c : Dev nD) (a b : Fin 64) :
    (V m c main_v14 : S64x64.Idx → EReal) (ix2 a b) = weightBlock (m ((c : Thread nD τ).loc main_arg4)) 0 (by omega) a b := by
  have e : (V m c main_v14 : S64x64.Idx → EReal)
      = extractStridedSlice S64x64 ![0, 0] (m ((c : Thread nD τ).loc main_arg4)) slices_S192x64_S64x64_0_0 := by
    dsimp only [Gen.V, Gen.hostOps0]; after_results
  rw [e]
  exact extractStridedSlice_apply _ _ _ _ _ (fun ax => by
    match ax with
    | ⟨0, _⟩ => rfl
    | ⟨1, _⟩ => show b.val = 0 + b.val; omega)

/-- The weight block that starts at row 64. -/
theorem block64_apply (c : Dev nD) (a b : Fin 64) :
    (V m c main_v15 : S64x64.Idx → EReal) (ix2 a b) = weightBlock (m ((c : Thread nD τ).loc main_arg4)) 64 (by omega) a b := by
  have e : (V m c main_v15 : S64x64.Idx → EReal)
      = extractStridedSlice S64x64 ![64, 0] (m ((c : Thread nD τ).loc main_arg4)) slices_S192x64_S64x64_64_0 := by
    dsimp only [Gen.V, Gen.hostOps0]; after_results
  rw [e]
  exact extractStridedSlice_apply _ _ _ _ _ (fun ax => by
    match ax with
    | ⟨0, _⟩ => rfl
    | ⟨1, _⟩ => show b.val = 0 + b.val; omega)

/-- The weight block that starts at row 128. -/
theorem block128_apply (c : Dev nD) (a b : Fin 64) :
    (V m c main_v16 : S64x64.Idx → EReal) (ix2 a b) = weightBlock (m ((c : Thread nD τ).loc main_arg4)) 128 (by omega) a b := by
  have e : (V m c main_v16 : S64x64.Idx → EReal)
      = extractStridedSlice S64x64 ![128, 0] (m ((c : Thread nD τ).loc main_arg4)) slices_S192x64_S64x64_128_0 := by
    dsimp only [Gen.V, Gen.hostOps0]; after_results
  rw [e]
  exact extractStridedSlice_apply _ _ _ _ _ (fun ax => by
    match ax with
    | ⟨0, _⟩ => rfl
    | ⟨1, _⟩ => show b.val = 0 + b.val; omega)

/-- The first bias as a [1, 64] row. -/
theorem bias1_apply (c : Dev nD) (j : Fin 64) :
    (V m c main_v17 : S1x64.Idx → EReal) (ix2 (0 : Fin 1) j) = m ((c : Thread nD τ).loc main_arg5) (ix1 j) := by
  have e : (V m c main_v17 : S1x64.Idx → EReal)
      = shapeCast S1x64 (m ((c : Thread nD τ).loc main_arg5)) shapeCasts_S64_S1x64 := by
    dsimp only [Gen.V, Gen.hostOps0]; after_results; rfl
  rw [e]
  exact shapeCast_a_1a_apply _ _ 0 j

/-- The second bias as a [1, 64] row. -/
theorem bias2_apply (c : Dev nD) (j : Fin 64) :
    (V m c main_v18 : S1x64.Idx → EReal) (ix2 (0 : Fin 1) j) = m ((c : Thread nD τ).loc main_arg7) (ix1 j) := by
  have e : (V m c main_v18 : S1x64.Idx → EReal)
      = shapeCast S1x64 (m ((c : Thread nD τ).loc main_arg7)) shapeCasts_S64_S1x64 := by
    dsimp only [Gen.V, Gen.hostOps0]; after_results; rfl
  rw [e]
  exact shapeCast_a_1a_apply _ _ 0 j

/-- The scale as a [1, 64] row. -/
theorem scale_apply (c : Dev nD) (j : Fin 64) :
    (V m c main_v19 : S1x64.Idx → EReal) (ix2 (0 : Fin 1) j) = m ((c : Thread nD τ).loc main_arg8) (ix1 j) := by
  have e : (V m c main_v19 : S1x64.Idx → EReal)
      = shapeCast S1x64 (m ((c : Thread nD τ).loc main_arg8)) shapeCasts_S64_S1x64 := by
    dsimp only [Gen.V, Gen.hostOps0]; after_results; rfl
  rw [e]
  exact shapeCast_a_1a_apply _ _ 0 j

/-- The shift as a [1, 64] row. -/
theorem shift_apply (c : Dev nD) (j : Fin 64) :
    (V m c main_v20 : S1x64.Idx → EReal) (ix2 (0 : Fin 1) j) = m ((c : Thread nD τ).loc main_arg9) (ix1 j) := by
  have e : (V m c main_v20 : S1x64.Idx → EReal)
      = shapeCast S1x64 (m ((c : Thread nD τ).loc main_arg9)) shapeCasts_S64_S1x64 := by
    dsimp only [Gen.V, Gen.hostOps0]; after_results; rfl
  rw [e]
  exact shapeCast_a_1a_apply _ _ 0 j

end Cert.KernelIdeal.Whole

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.EdgeUpdate
open Idealize.ShloMosaic.Pipeline (Dat)

variable (m : (ℓ : Loc nD τ sig) → Buf (Elt Ideal) ℓ) (ρ : Dev nD → PrngReg)

/-! ## The windows' blocks -/

/-- The printed index maps over the 400 grid points: the three feature windows and the output window are at
    block (t, 0), -/
theorem idx_moving : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- and every weight, bias, scale and shift window stays at block (0, 0). -/
theorem idx_resident : ∀ t : Fin cfg0.N,
      win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The row of the whole array under local row p of point t's block. -/
def rowOf (t : Fin cfg0.N) (p : Fin 2000) : Fin 800000 :=
  ⟨2000 * t.val + p.val, by have h1 := t.isLt; have h2 : cfg0.N = 400 := N_0; have h3 := p.isLt; omega⟩

theorem srcBlock_apply (c : Dev nD) (t : Fin cfg0.N) (p : Fin 2000) (j : Fin 64) :
    (iblk m c 0 t : S2000x64.Idx → EReal) (ix2 p j) = (V m c main_v6 : S800000x64.Idx → EReal) (ix2 (rowOf t p) j) := by
  obtain ⟨h0, h1, -⟩ := idx_moving t
  show (V m c main_v6 : S800000x64.Idx → EReal) (((cfg0.win 0).blk t).view.emb (ix2 p j)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 64 + 1 * j.val = j.val; omega

theorem dstBlock_apply (c : Dev nD) (t : Fin cfg0.N) (p : Fin 2000) (j : Fin 64) :
    (iblk m c 1 t : S2000x64.Idx → EReal) (ix2 p j) = (V m c main_v13 : S800000x64.Idx → EReal) (ix2 (rowOf t p) j) := by
  obtain ⟨-, -, h0, h1, -⟩ := idx_moving t
  show (V m c main_v13 : S800000x64.Idx → EReal) (((cfg0.win 1).blk t).view.emb (ix2 p j)) = _
  refine congrArg _ (funext fun a => Fin.ext ?_)
  match a with
  | ⟨0, _⟩ => show win0_1.index t (0 : Fin 2) * 2000 + 1 * p.val = 2000 * t.val + p.val; omega
  | ⟨1, _⟩ => show win0_1.index t (1 : Fin 2) * 64 + 1 * j.val = j.val; omega

theorem edgeBlock_apply (c : Dev nD) (t : Fin cfg0.N) (p : Fin 2000) (j : Fin 64) :
    (iblk m c 2 t : S2000x64.Idx → EReal) (ix2 p j) = m ((c : Thread nD τ).loc main_arg1) (ix2 (rowOf t p) j) := by
  obtain ⟨-, -, -, -, h0, h1, -⟩ := idx_moving t
  show (V m c main_arg1 : S800000x64.Idx → EReal) (((cfg0.win 2).blk t).view.emb (ix2 p j)) = _
  rw [V_main_arg1]
  refine congrArg _ (funext fun a => Fin.ext ?_)
  match a with
  | ⟨0, _⟩ => show win0_2.index t (0 : Fin 2) * 2000 + 1 * p.val = 2000 * t.val + p.val; omega
  | ⟨1, _⟩ => show win0_2.index t (1 : Fin 2) * 64 + 1 * j.val = j.val; omega

theorem block0Win_apply (c : Dev nD) (t : Fin cfg0.N) (a b : Fin 64) :
    (iblk m c 3 t : S64x64.Idx → EReal) (ix2 a b) = weightBlock (m ((c : Thread nD τ).loc main_arg4)) 0 (by omega) a b := by
  obtain ⟨h0, h1, -⟩ := idx_resident t
  show (V m c main_v14 : S64x64.Idx → EReal) (((cfg0.win 3).blk t).view.emb (ix2 a b)) = _
  refine (congrArg _ (funext fun ax => Fin.ext ?_)).trans (block0_apply m c a b)
  match ax with
  | ⟨0, _⟩ => show win0_3.index t (0 : Fin 2) * 64 + 1 * a.val = a.val; omega
  | ⟨1, _⟩ => show win0_3.index t (1 : Fin 2) * 64 + 1 * b.val = b.val; omega

theorem block64Win_apply (c : Dev nD) (t : Fin cfg0.N) (a b : Fin 64) :
    (iblk m c 4 t : S64x64.Idx → EReal) (ix2 a b) = weightBlock (m ((c : Thread nD τ).loc main_arg4)) 64 (by omega) a b := by
  obtain ⟨-, -, h0, h1, -⟩ := idx_resident t
  show (V m c main_v15 : S64x64.Idx → EReal) (((cfg0.win 4).blk t).view.emb (ix2 a b)) = _
  refine (congrArg _ (funext fun ax => Fin.ext ?_)).trans (block64_apply m c a b)
  match ax with
  | ⟨0, _⟩ => show win0_4.index t (0 : Fin 2) * 64 + 1 * a.val = a.val; omega
  | ⟨1, _⟩ => show win0_4.index t (1 : Fin 2) * 64 + 1 * b.val = b.val; omega

theorem block128Win_apply (c : Dev nD) (t : Fin cfg0.N) (a b : Fin 64) :
    (iblk m c 5 t : S64x64.Idx → EReal) (ix2 a b) = weightBlock (m ((c : Thread nD τ).loc main_arg4)) 128 (by omega) a b := by
  obtain ⟨-, -, -, -, h0, h1, -⟩ := idx_resident t
  show (V m c main_v16 : S64x64.Idx → EReal) (((cfg0.win 5).blk t).view.emb (ix2 a b)) = _
  refine (congrArg _ (funext fun ax => Fin.ext ?_)).trans (block128_apply m c a b)
  match ax with
  | ⟨0, _⟩ => show win0_5.index t (0 : Fin 2) * 64 + 1 * a.val = a.val; omega
  | ⟨1, _⟩ => show win0_5.index t (1 : Fin 2) * 64 + 1 * b.val = b.val; omega

theorem bias1Win_apply (c : Dev nD) (t : Fin cfg0.N) (j : Fin 64) :
    (iblk m c 6 t : S1x64.Idx → EReal) (ix2 (0 : Fin 1) j) = m ((c : Thread nD τ).loc main_arg5) (ix1 j) := by
  obtain ⟨-, -, -, -, -, -, h0, h1, -⟩ := idx_resident t
  show (V m c main_v17 : S1x64.Idx → EReal) (((cfg0.win 6).blk t).view.emb (ix2 (0 : Fin 1) j)) = _
  refine (congrArg _ (funext fun ax => Fin.ext ?_)).trans (bias1_apply m c j)
  match ax with
  | ⟨0, _⟩ => show win0_6.index t (0 : Fin 2) * 1 + 1 * 0 = 0; omega
  | ⟨1, _⟩ => show win0_6.index t (1 : Fin 2) * 64 + 1 * j.val = j.val; omega

theorem weights2Win_apply (c : Dev nD) (t : Fin cfg0.N) (a b : Fin 64) :
    (iblk m c 7 t : S64x64.Idx → EReal) (ix2 a b) = m ((c : Thread nD τ).loc main_arg6) (ix2 a b) := by
  obtain ⟨-, -, -, -, -, -, -, -, h0, h1, -⟩ := idx_resident t
  show (V m c main_arg6 : S64x64.Idx → EReal) (((cfg0.win 7).blk t).view.emb (ix2 a b)) = _
  rw [V_main_arg6]
  refine congrArg _ (funext fun ax => Fin.ext ?_)
  match ax with
  | ⟨0, _⟩ => show win0_7.index t (0 : Fin 2) * 64 + 1 * a.val = a.val; omega
  | ⟨1, _⟩ => show win0_7.index t (1 : Fin 2) * 64 + 1 * b.val = b.val; omega

theorem bias2Win_apply (c : Dev nD) (t : Fin cfg0.N) (j : Fin 64) :
    (iblk m c 8 t : S1x64.Idx → EReal) (ix2 (0 : Fin 1) j) = m ((c : Thread nD τ).loc main_arg7) (ix1 j) := by
  obtain ⟨-, -, -, -, -, -, -, -, -, -, h0, h1, -⟩ := idx_resident t
  show (V m c main_v18 : S1x64.Idx → EReal) (((cfg0.win 8).blk t).view.emb (ix2 (0 : Fin 1) j)) = _
  refine (congrArg _ (funext fun ax => Fin.ext ?_)).trans (bias2_apply m c j)
  match ax with
  | ⟨0, _⟩ => show win0_8.index t (0 : Fin 2) * 1 + 1 * 0 = 0; omega
  | ⟨1, _⟩ => show win0_8.index t (1 : Fin 2) * 64 + 1 * j.val = j.val; omega

theorem scaleWin_apply (c : Dev nD) (t : Fin cfg0.N) (j : Fin 64) :
    (iblk m c 9 t : S1x64.Idx → EReal) (ix2 (0 : Fin 1) j) = m ((c : Thread nD τ).loc main_arg8) (ix1 j) := by
  obtain ⟨-, -, -, -, -, -, -, -, -, -, -, -, h0, h1, -⟩ := idx_resident t
  show (V m c main_v19 : S1x64.Idx → EReal) (((cfg0.win 9).blk t).view.emb (ix2 (0 : Fin 1) j)) = _
  refine (congrArg _ (funext fun ax => Fin.ext ?_)).trans (scale_apply m c j)
  match ax with
  | ⟨0, _⟩ => show win0_9.index t (0 : Fin 2) * 1 + 1 * 0 = 0; omega
  | ⟨1, _⟩ => show win0_9.index t (1 : Fin 2) * 64 + 1 * j.val = j.val; omega

theorem shiftWin_apply (c : Dev nD) (t : Fin cfg0.N) (j : Fin 64) :
    (iblk m c 10 t : S1x64.Idx → EReal) (ix2 (0 : Fin 1) j) = m ((c : Thread nD τ).loc main_arg9) (ix1 j) := by
  obtain ⟨-, -, -, -, -, -, -, -, -, -, -, -, -, -, h0, h1⟩ := idx_resident t
  show (V m c main_v20 : S1x64.Idx → EReal) (((cfg0.win 10).blk t).view.emb (ix2 (0 : Fin 1) j)) = _
  refine (congrArg _ (funext fun ax => Fin.ext ?_)).trans (shift_apply m c j)
  match ax with
  | ⟨0, _⟩ => show win0_10.index t (0 : Fin 2) * 1 + 1 * 0 = 0; omega
  | ⟨1, _⟩ => show win0_10.index t (1 : Fin 2) * 64 + 1 * j.val = j.val; omega

end Cert.KernelIdeal.Whole

end
-- ==== Proof.KernelRun.lean ====
/-
  The kernel's run. Point t of the grid writes back block t of the whole-array function (its rows
  2000 t … 2000 t + 1999): entry (p, q) of the stored tile is the updated row of row p of the staged
  blocks, and those blocks are rows 2000 t + p of the arrays. The 400 blocks fill the result, so the
  run ends with the result array at the whole-array function.
-/
import proofs.«116071_j87522843558205_1_alg».proof.Proof.KernelArray

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.EdgeUpdate
open Idealize.ShloMosaic.Pipeline (Dat)

variable (m : (ℓ : Loc nD τ sig) → Buf (Elt Ideal) ℓ) (ρ : Dev nD → PrngReg)

/-! ## What a point writes back, and the array the blocks fill -/

/-- The result array: the whole-array function of the two gathered arrays as the region finds them and of
    the argument arrays. -/
def result (c : Dev nD) : S800000x64.Idx → EReal :=
  wholeArray (V m c main_v6 : S800000x64.Idx → EReal) (V m c main_v13 : S800000x64.Idx → EReal)
    (m ((c : Thread nD τ).loc main_arg1)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem origin_zero : (![0, 0] : Fin 2 → Nat) = fun _ => 0 := funext fun a => by fin_cases a <;> rfl

/-- Point t writes back block t — rows 2000 t … 2000 t + 1999 — of the result array. -/
theorem flushed_eq (c : Dev nD) (t : Fin cfg0.N) :
    (dats m 0 c).flushed 11 t = ((cfg0.win 11).blk t).view.read (Elt Ideal) (result m c) := by
  rw [ValueP.flushed11]
  unfold out0_11
  rw [View.canon_unit_zero origin_zero]
  simp only [View.ld_unit_zero (S := S2000x64) origin_zero, View.ld_unit_zero (S := S64x64) origin_zero,
    View.ld_unit_zero (S := S1x64) origin_zero]
  funext y
  obtain ⟨p, q, rfl⟩ : ∃ (p : Fin 2000) (q : Fin 64), y = ix2 p q := ⟨y 0, y 1, eq_ix2 y⟩
  obtain ⟨-, -, -, -, -, -, h0, h1⟩ := idx_moving t
  have hemb : ((cfg0.win 11).blk t).view.emb (ix2 p q) = ix2 (rowOf t p) q := funext fun a => Fin.ext (by
    match a with
    | ⟨0, _⟩ => show win0_11.index t (0 : Fin 2) * 2000 + 1 * p.val = 2000 * t.val + p.val; omega
    | ⟨1, _⟩ => show win0_11.index t (1 : Fin 2) * 64 + 1 * q.val = q.val; omega)
  refine (Block.stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  show _ = result m c (((cfg0.win 11).blk t).view.emb (ix2 p q))
  rw [hemb]
  show _ = wholeArray _ _ _ _ _ _ _ _ _ (ix2 (rowOf t p) q)
  rw [wholeArray_apply]
  simp only [srcBlock_apply m c t, dstBlock_apply m c t, edgeBlock_apply m c t, block0Win_apply m c t,
    block64Win_apply m c t, block128Win_apply m c t, bias1Win_apply m c t, weights2Win_apply m c t,
    bias2Win_apply m c t, scaleWin_apply m c t, shiftWin_apply m c t]

/-- An index of the result is in point t's block iff each coordinate is in the block's range on its axis. -/
theorem mem_blk (t : Fin cfg0.N) (i : S800000x64.Idx) :
    i ∈ ((cfg0.win 11).blk t).view.set ↔ ∀ a : Fin 2, win0_11.index t a * S2000x64.size a ≤ (i a).val
      ∧ (i a).val < win0_11.index t a * S2000x64.size a + S2000x64.size a := by
  show i ∈ ((View.whole main_v21).slice (win0_11.rect t)).set ↔ _
  rw [View.set_slice_whole, Rect.mem_set_unit]
  exact Iff.rfl

/-- Every index of the result lies in the block of the point its row divided by 2000 names. -/
theorem cover (i : S800000x64.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  have hN : cfg0.N = 400 := N_0
  obtain ⟨t, ht⟩ : ∃ t : Fin cfg0.N, t.val = (i 0).val / 2000 := ⟨⟨(i 0).val / 2000, by omega⟩, rfl⟩
  obtain ⟨-, -, -, -, -, -, h0, h1⟩ := idx_moving t
  refine ⟨t, flush0_11 t, ?_⟩
  rw [mem_blk]
  intro a
  match a with
  | ⟨0, _⟩ =>
    show win0_11.index t (0 : Fin 2) * 2000 ≤ (i 0).val ∧ (i 0).val < win0_11.index t (0 : Fin 2) * 2000 + 2000
    omega
  | ⟨1, _⟩ =>
    show win0_11.index t (1 : Fin 2) * 64 ≤ (i 1).val ∧ (i 1).val < win0_11.index t (1 : Fin 2) * 64 + 64
    omega

/-- The result array after the run is the whole-array function. -/
theorem final (c : Dev nD) : (dats m 0 c).arrAt 11 cfg0.N = result m c :=
  (dats m 0 c).arrAt_eq_of_cover 11 (result m c) (fun t _ => flushed_eq m c t) cover

/-- The kernel's run: it ends with the result at the whole-array function and the arguments as launched. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (ValueP.run_blocks m ρ)

end Cert.KernelIdeal.Whole

end
-- ==== Proof.LibJoinThree.lean ====
/-
  Three [n, 64] arrays joined along the second axis into one [n, 192] array, read at an entry: column
  k of the first stretch of 64 columns is column k of the first array, column 64 + k that of the second,
  column 128 + k that of the third; the row is kept.
-/
import Idealize.ShloMosaic.Lib.ValueIdx
import Idealize.ShloMosaic.Lib.Pipeline.Value

namespace Cert.JoinThree

open Idealize.ShloMosaic Idealize.ShloMosaic.ValueIdx

variable {α : Type} {n : ℕ}

/-- The list of the three pieces. -/
abbrev pieces (u0 u1 u2 : (⟨2, ![n, 64]⟩ : Shape).Idx → α) : List ((s : Shape) × (s.Idx → α)) :=
  [⟨⟨2, ![n, 64]⟩, u0⟩, ⟨⟨2, ![n, 64]⟩, u1⟩, ⟨⟨2, ![n, 64]⟩, u2⟩]

/-- Columns 0 … 63 of the joined array are the first array's. -/
theorem join_first (u0 u1 u2 : (⟨2, ![n, 64]⟩ : Shape).Idx → α)
    (h : Shape.Concatenates ((pieces u0 u1 u2).map (·.1)) ⟨2, ![n, 192]⟩ 1) (r : Fin n) (k : Fin 64) :
    concatenate ⟨2, ![n, 192]⟩ 1 (pieces u0 u1 u2) h (ix2 r (⟨k.val, by omega⟩ : Fin 192)) = u0 (ix2 r k) :=
  concatenate_apply_piece 1 (pieces u0 u1 u2) h _ 0 (by show (0 : ℕ) < 3; omega) ⟨2, ![n, 64]⟩ u0 rfl rfl 0 rfl (ix2 r k)
    (fun b hb => by
      match b with
      | ⟨0, _⟩ => rfl
      | ⟨1, _⟩ => exact absurd (Fin.ext rfl) hb)
    (by show 0 + k.val = k.val; omega)

/-- Columns 64 … 127 of the joined array are the second array's. -/
theorem join_second (u0 u1 u2 : (⟨2, ![n, 64]⟩ : Shape).Idx → α)
    (h : Shape.Concatenates ((pieces u0 u1 u2).map (·.1)) ⟨2, ![n, 192]⟩ 1) (r : Fin n) (k : Fin 64) :
    concatenate ⟨2, ![n, 192]⟩ 1 (pieces u0 u1 u2) h (ix2 r (⟨64 + k.val, by omega⟩ : Fin 192)) = u1 (ix2 r k) :=
  concatenate_apply_piece 1 (pieces u0 u1 u2) h _ 1 (by show (1 : ℕ) < 3; omega) ⟨2, ![n, 64]⟩ u1 rfl rfl 64 rfl (ix2 r k)
    (fun b hb => by
      match b with
      | ⟨0, _⟩ => rfl
      | ⟨1, _⟩ => exact absurd (Fin.ext rfl) hb)
    (by show 64 + k.val = 64 + k.val; rfl)

/-- Columns 128 … 191 of the joined array are the third array's. -/
theorem join_third (u0 u1 u2 : (⟨2, ![n, 64]⟩ : Shape).Idx → α)
    (h : Shape.Concatenates ((pieces u0 u1 u2).map (·.1)) ⟨2, ![n, 192]⟩ 1) (r : Fin n) (k : Fin 64) :
    concatenate ⟨2, ![n, 192]⟩ 1 (pieces u0 u1 u2) h (ix2 r (⟨128 + k.val, by omega⟩ : Fin 192)) = u2 (ix2 r k) :=
  concatenate_apply_piece 1 (pieces u0 u1 u2) h _ 2 (by show (2 : ℕ) < 3; omega) ⟨2, ![n, 64]⟩ u2 rfl rfl 128 rfl (ix2 r k)
    (fun b hb => by
      match b with
      | ⟨0, _⟩ => rfl
      | ⟨1, _⟩ => exact absurd (Fin.ext rfl) hb)
    (by show 128 + k.val = 128 + k.val; rfl)

end Cert.JoinThree
-- ==== Proof.RefArray.lean ====
/-
  The reference's result is the whole-array function. Row r of the reference: the three feature rows
  joined into 192 channels against the [192, 64] weights — a sum over 192 that is the sum of the three
  sums over 64 against the weights' three row blocks — plus the bias; the unit written out as
  x * (1 / (1 + exp (-x))), which is x times the sigmoid; the second layer and its unit; the residual;
  and the layer normalisation with both means as a host sum from the zero word over the float 64.0.
-/
import proofs.«116071_j87522843558205_1_alg».proof.Proof.Gen.ReferenceIdeal.Read
import proofs.«116071_j87522843558205_1_alg».proof.Proof.LibJoinThree
import proofs.«116071_j87522843558205_1_alg».proof.Proof.EdgeArray
import Idealize.ShloMosaic.PureOps.Ideal.Laws

noncomputable section

namespace Cert.ReferenceIdeal.Whole

open Cert.ReferenceIdeal Cert.ReferenceIdeal.Read Idealize.ShloMosaic Idealize.ShloMosaic.ValueIdx Cert.EdgeUpdate

/-! ## The reference's index functions at an entry given by coordinates -/

section indices
variable (r : Fin 800000) (j : Fin 64) (u : Fin 1)

theorem lidx15_eq (k : Fin 192) : lidx_main_v15 (ix2 r j) k = ix2 r k :=
  funext fun a => Fin.ext (by match a with | ⟨0, _⟩ => rfl | ⟨1, _⟩ => rfl)

theorem ridx15_eq (k : Fin 192) : ridx_main_v15 (ix2 r j) k = ix2 k j :=
  funext fun a => Fin.ext (by match a with | ⟨0, _⟩ => rfl | ⟨1, _⟩ => rfl)

theorem lidx20_eq (k : Fin 64) : lidx_main_v20 (ix2 r j) k = ix2 r k :=
  funext fun a => Fin.ext (by match a with | ⟨0, _⟩ => rfl | ⟨1, _⟩ => rfl)

theorem ridx20_eq (k : Fin 64) : ridx_main_v20 (ix2 r j) k = ix2 k j :=
  funext fun a => Fin.ext (by match a with | ⟨0, _⟩ => rfl | ⟨1, _⟩ => rfl)

theorem idx17_eq  : idx_main_v17 (ix2 r j) = ix2 (0 : Fin 1) j :=
  funext fun a => Fin.ext (by match a with | ⟨0, _⟩ => rfl | ⟨1, _⟩ => rfl)

theorem idx22_eq  : idx_main_v22 (ix2 r j) = ix2 (0 : Fin 1) j :=
  funext fun a => Fin.ext (by match a with | ⟨0, _⟩ => rfl | ⟨1, _⟩ => rfl)

theorem idx45_eq  : idx_main_v45 (ix2 r j) = ix2 (0 : Fin 1) j :=
  funext fun a => Fin.ext (by match a with | ⟨0, _⟩ => rfl | ⟨1, _⟩ => rfl)

theorem idx48_eq  : idx_main_v48 (ix2 r j) = ix2 (0 : Fin 1) j :=
  funext fun a => Fin.ext (by match a with | ⟨0, _⟩ => rfl | ⟨1, _⟩ => rfl)

theorem idx16_eq  : idx_main_v16 (ix2 u j) = ix1 j :=
  funext fun a => Fin.ext (by match a with | ⟨0, _⟩ => rfl)

theorem idx21_eq  : idx_main_v21 (ix2 u j) = ix1 j :=
  funext fun a => Fin.ext (by match a with | ⟨0, _⟩ => rfl)

theorem idx44_eq  : idx_main_v44 (ix2 u j) = ix1 j :=
  funext fun a => Fin.ext (by match a with | ⟨0, _⟩ => rfl)

theorem idx47_eq  : idx_main_v47 (ix2 u j) = ix1 j :=
  funext fun a => Fin.ext (by match a with | ⟨0, _⟩ => rfl)

theorem idx30_eq  : idx_main_v30 (ix2 r j) = ix2 r (0 : Fin 1) :=
  funext fun a => Fin.ext (by match a with | ⟨0, _⟩ => rfl | ⟨1, _⟩ => rfl)

theorem idx37_eq  : idx_main_v37 (ix2 r j) = ix2 r (0 : Fin 1) :=
  funext fun a => Fin.ext (by match a with | ⟨0, _⟩ => rfl | ⟨1, _⟩ => rfl)

theorem idx42_eq  : idx_main_v42 (ix2 r j) = ix2 r (0 : Fin 1) :=
  funext fun a => Fin.ext (by match a with | ⟨0, _⟩ => rfl | ⟨1, _⟩ => rfl)

theorem idx27_eq  : idx_main_v27 (ix2 r u) = ix1 r :=
  funext fun a => Fin.ext (by match a with | ⟨0, _⟩ => rfl)

theorem idx34_eq  : idx_main_v34 (ix2 r u) = ix1 r :=
  funext fun a => Fin.ext (by match a with | ⟨0, _⟩ => rfl)

theorem idx26_eq (k : Fin 64) : idx_main_v26 (ix1 r) k = ix2 r k :=
  funext fun a => Fin.ext (by match a with | ⟨0, _⟩ => rfl | ⟨1, _⟩ => rfl)

theorem idx33_eq (k : Fin 64) : idx_main_v33 (ix1 r) k = ix2 r k :=
  funext fun a => Fin.ext (by match a with | ⟨0, _⟩ => rfl | ⟨1, _⟩ => rfl)

end indices

variable (x0 : (⟨S50000x64, .f32⟩ : BufTy).Contents (Elt Ideal)) (x1 : (⟨S800000x64, .f32⟩ : BufTy).Contents (Elt Ideal))
  (x2 x3 : (⟨S800000, .i32⟩ : BufTy).Contents (Elt Ideal)) (x4 : (⟨S192x64, .f32⟩ : BufTy).Contents (Elt Ideal)) (x5 : (⟨S64, .f32⟩ : BufTy).Contents (Elt Ideal))
  (x6 : (⟨S64x64, .f32⟩ : BufTy).Contents (Elt Ideal)) (x7 x8 x9 : (⟨S64, .f32⟩ : BufTy).Contents (Elt Ideal))

/-! ## The layers -/

/-- The weight block that starts at row 0 is the weights' first 64 rows. -/
theorem weightBlock_zero (W1 : FVec Ideal ⟨2, ![192, 64]⟩ .f32) (h : 0 + 64 ≤ 192) (a b : Fin 64) :
    weightBlock W1 0 h a b = W1 (ix2 (⟨a.val, by omega⟩ : Fin 192) b) :=
  congrArg (fun t : Fin 192 => W1 (ix2 t b)) (Fin.ext (Nat.zero_add a.val))

/-- The first layer before its unit, at (r, j): the joined row against the weights is the three rows each against its block. -/
theorem firstLayer_apply (r : Fin 800000) (j : Fin 64) :
    val_main_v18 (F := Ideal) x0 x1 x2 x3 x4 x5 (ix2 r j)
      = pre1 (fun k => val_main_v6 (F := Ideal) x0 x2 (ix2 r k)) (fun k => val_main_v13 (F := Ideal) x0 x3 (ix2 r k)) (fun k => x1 (ix2 r k))
          (weightBlock x4 0 (by omega)) (weightBlock x4 64 (by omega)) (weightBlock x4 128 (by omega)) (fun j => x5 (ix1 j)) j := by
  rw [val_main_v18_apply, val_main_v15_apply, val_main_v17_apply, val_main_v16_apply, idx17_eq, idx16_eq]
  simp only [lidx15_eq, ridx15_eq]
  rw [sum_three_stretches]
  unfold val_main_v14
  refine congrArg₂ (· + ·) (congrArg₂ (· + ·) (congrArg₂ (· + ·) ?_ ?_) ?_) rfl
  · exact Finset.sum_congr rfl fun k _ => congrArg₂ (· * ·) (Cert.JoinThree.join_first _ _ _ _ r k) (weightBlock_zero x4 _ k j).symm
  · exact Finset.sum_congr rfl fun k _ => congrArg₂ (· * ·) (Cert.JoinThree.join_second _ _ _ _ r k) rfl
  · exact Finset.sum_congr rfl fun k _ => congrArg₂ (· * ·) (Cert.JoinThree.join_third _ _ _ _ r k) rfl

/-- The first unit, written out with the literal 1.0, is x times the sigmoid. -/
theorem unit1_apply (i : S800000x64.Idx) :
    val_main_v19 (F := Ideal) x0 x1 x2 x3 x4 x5 i = silu (val_main_v18 (F := Ideal) x0 x1 x2 x3 x4 x5 i) := by
  rw [val_main_v19_apply, val_main_call0_v5_apply, val_main_call0_v4_apply, val_main_call0_cst_0_apply, val_main_call0_v3_apply,
    val_main_call0_v2_apply, val_main_call0_cst_apply, val_main_call0_v1_apply, val_main_call0_v0_apply]
  exact congrArg (val_main_v18 (F := Ideal) x0 x1 x2 x3 x4 x5 i * ·) (logistic_written_out _)

/-- The second layer before its unit, at (r, j). -/
theorem secondLayer_apply (r : Fin 800000) (j : Fin 64) :
    val_main_v23 (F := Ideal) x0 x1 x2 x3 x4 x5 x6 x7 (ix2 r j)
      = pre2 (fun k => val_main_v19 (F := Ideal) x0 x1 x2 x3 x4 x5 (ix2 r k)) (fun a b => x6 (ix2 a b)) (fun j => x7 (ix1 j)) j := by
  rw [val_main_v23_apply, val_main_v20_apply, val_main_v22_apply, val_main_v21_apply, idx22_eq, idx21_eq]
  simp only [lidx20_eq, ridx20_eq]
  rfl

/-- The second unit. -/
theorem unit2_apply (i : S800000x64.Idx) :
    val_main_v24 (F := Ideal) x0 x1 x2 x3 x4 x5 x6 x7 i = silu (val_main_v23 (F := Ideal) x0 x1 x2 x3 x4 x5 x6 x7 i) := by
  rw [val_main_v24_apply, val_main_call1_v5_apply, val_main_call1_v4_apply, val_main_call1_cst_0_apply, val_main_call1_v3_apply,
    val_main_call1_v2_apply, val_main_call1_cst_apply, val_main_call1_v1_apply, val_main_call1_v0_apply]
  exact congrArg (val_main_v23 (F := Ideal) x0 x1 x2 x3 x4 x5 x6 x7 i * ·) (logistic_written_out _)

/-- The residual row the normalisation sees. -/
abbrev res (r : Fin 800000) : Fin 64 → EReal := fun k => val_main_v25 (F := Ideal) x0 x1 x2 x3 x4 x5 x6 x7 (ix2 r k)

/-- The column of row means, at (r, 0). -/
theorem meanRef_apply (r : Fin 800000) (u : Fin 1) :
    val_main_v29 (F := Ideal) x0 x1 x2 x3 x4 x5 x6 x7 (ix2 r u) = mean (res x0 x1 x2 x3 x4 x5 x6 x7 r) := by
  rw [val_main_v29_apply, val_main_v27_apply, val_main_v26_apply, val_main_v28_apply, val_main_cst_3_apply, val_main_cst_apply, idx27_eq]
  simp only [idx26_eq]
  show Ideal.div (Ideal.ofBits .f32 0x00000000#32 + ∑ k : Fin 64, val_main_v25 (F := Ideal) x0 x1 x2 x3 x4 x5 x6 x7 (ix2 r k)) c64 = _
  rw [Ideal.ofBits_zero_f32, zero_add]
  rfl

/-- The centred row, as the square's operand reads it … -/
theorem centredRef_apply (r : Fin 800000) (j : Fin 64) :
    val_main_v31 (F := Ideal) x0 x1 x2 x3 x4 x5 x6 x7 (ix2 r j) = centred (res x0 x1 x2 x3 x4 x5 x6 x7 r) j := by
  rw [val_main_v31_apply, val_main_v30_apply, idx30_eq, meanRef_apply]
  rfl

/-- … and as the product with the reciprocal root reads it. -/
theorem centredRef'_apply (r : Fin 800000) (j : Fin 64) :
    val_main_v38 (F := Ideal) x0 x1 x2 x3 x4 x5 x6 x7 (ix2 r j) = centred (res x0 x1 x2 x3 x4 x5 x6 x7 r) j := by
  rw [val_main_v38_apply, val_main_v37_apply, idx37_eq, meanRef_apply]
  rfl

/-- The column of row variances, at (r, 0). -/
theorem varRef_apply (r : Fin 800000) (u : Fin 1) :
    val_main_v36 (F := Ideal) x0 x1 x2 x3 x4 x5 x6 x7 (ix2 r u)
      = mean (fun k => centred (res x0 x1 x2 x3 x4 x5 x6 x7 r) k * centred (res x0 x1 x2 x3 x4 x5 x6 x7 r) k) := by
  rw [val_main_v36_apply, val_main_v34_apply, val_main_v33_apply, val_main_v35_apply, val_main_cst_5_apply, val_main_cst_4_apply, idx34_eq]
  simp only [idx33_eq, val_main_v32_apply, centredRef_apply]
  show Ideal.div (Ideal.ofBits .f32 0x00000000#32 + ∑ k : Fin 64, centred (res x0 x1 x2 x3 x4 x5 x6 x7 r) k * centred (res x0 x1 x2 x3 x4 x5 x6 x7 r) k) c64 = _
  rw [Ideal.ofBits_zero_f32, zero_add]
  rfl

/-- The result at (r, j): the layer normalisation of the residual row. -/
theorem outRef_apply (r : Fin 800000) (j : Fin 64) :
    val_main_v49 (F := Ideal) x0 x1 x2 x3 x4 x5 x6 x7 x8 x9 (ix2 r j)
      = layerNorm (res x0 x1 x2 x3 x4 x5 x6 x7 r) (fun j => x8 (ix1 j)) (fun j => x9 (ix1 j)) j := by
  rw [val_main_v49_apply, val_main_v46_apply, val_main_v43_apply, centredRef'_apply, val_main_v42_apply, idx42_eq, val_main_v41_apply,
    val_main_v40_apply, varRef_apply, val_main_v39_apply, val_main_cst_6_apply, val_main_v45_apply, val_main_v44_apply, idx45_eq, idx44_eq,
    val_main_v48_apply, val_main_v47_apply, idx48_eq, idx47_eq]
  rfl

/-! ## The whole array -/

/-- The reference's result is the whole-array function of its two gathered arrays and its arguments. -/
theorem reference_eq :
    val_main_v49 (F := Ideal) x0 x1 x2 x3 x4 x5 x6 x7 x8 x9
      = wholeArray (val_main_v6 (F := Ideal) x0 x2) (val_main_v13 (F := Ideal) x0 x3) x1 x4 x5 x6 x7 x8 x9 := by
  funext i
  obtain ⟨r, j, rfl⟩ : ∃ (r : Fin 800000) (j : Fin 64), i = ix2 r j := ⟨i 0, i 1, eq_ix2 i⟩
  rw [outRef_apply, wholeArray_apply]
  unfold edgeRow
  refine congrArg (fun f => layerNorm f _ _ j) (funext fun k => ?_)
  show x1 (ix2 r k) + val_main_v24 (F := Ideal) x0 x1 x2 x3 x4 x5 x6 x7 (ix2 r k) = _
  rw [unit2_apply, secondLayer_apply]
  unfold Cert.EdgeUpdate.residual
  refine congrArg (fun t => x1 (ix2 r k) + silu t) (congrArg (fun a => pre2 a _ _ k) (funext fun k' => ?_))
  rw [unit1_apply, firstLayer_apply]

end Cert.ReferenceIdeal.Whole

end
-- ==== Proof.Agreement.lean ====
/-
  The two programs end with one array. The kernel's run ends with the result at the whole-array
  function of the two arrays its host gathers wrote and of its arguments; the reference's run ends at
  the same function of its own two gathered arrays and its arguments. Both programs gather the rows of
  the node table at the same wrapped indices (an index below zero moved up by 50000), so the gathered
  arrays are the same terms of the arguments, and the arguments agree.
-/
import proofs.«116071_j87522843558205_1_alg».proof.Defs
import proofs.«116071_j87522843558205_1_alg».proof.Proof.Gen.Pre_finite_inputs
import proofs.«116071_j87522843558205_1_alg».proof.Proof.Gen.ReferenceIdeal.Run
import proofs.«116071_j87522843558205_1_alg».proof.Proof.Gen.ReferenceIdeal.Read
import proofs.«116071_j87522843558205_1_alg».proof.Proof.KernelRun
import proofs.«116071_j87522843558205_1_alg».proof.Proof.RefArray
import Idealize.ShloMosaic.Lib.StableHlo.Run

noncomputable section

namespace Cert.Proof.Agreement

open Idealize.ShloMosaic Idealize.ShloMosaic.TcCoe Idealize.SL.Sem Idealize.ShloMosaic.StableHlo Cert.EdgeUpdate

variable (m : (ℓ : Loc Cert.KernelIdeal.nD Cert.KernelIdeal.τ Cert.KernelIdeal.sig) → Buf (Elt Ideal) ℓ)

/-- The source rows the kernel's host gather wrote are the reference's gathered source rows. -/
theorem gatherSrc_eq (c : Dev Cert.KernelIdeal.nD) :
    (Cert.KernelIdeal.Gen.V m c Cert.KernelIdeal.main_v6 : Cert.KernelIdeal.S800000x64.Idx → EReal)
      = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  dsimp only [Cert.KernelIdeal.Gen.V, Cert.KernelIdeal.Gen.hostOps0]; after_results; rfl

/-- The destination rows likewise. -/
theorem gatherDst_eq (c : Dev Cert.KernelIdeal.nD) :
    (Cert.KernelIdeal.Gen.V m c Cert.KernelIdeal.main_v13 : Cert.KernelIdeal.S800000x64.Idx → EReal)
      = Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) := by
  dsimp only [Cert.KernelIdeal.Gen.V, Cert.KernelIdeal.Gen.hostOps0]; after_results; rfl

/-- From memories that agree on the arguments both idealized programs run and end with equal results. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v49_eq, Cert.ReferenceIdeal.Whole.reference_eq, h0, h1, h2, h3, h4, h5, h6, h7, h8, h9]
  unfold Cert.KernelIdeal.Whole.result
  beta_reduce
  rw [gatherSrc_eq m c, gatherDst_eq m c]

end Cert.Proof.Agreement

end
-- ==== Proof.lean ====
/- An edge update of a graph network against its plain reference, over the extended reals.
   For each of 800000 edges the programs take the rows of a node table at the edge's two end points
   (host gathers at indices wrapped once by the table's height) and the edge's own 64 features, pass the
   three rows through a linear layer with the unit x * sigmoid x, a second such layer, add the edge's
   features back, and normalise the 64 channels (mean and variance over the float 64.0, the reciprocal
   root of variance plus a small offset, a scale and a shift). The kernel works on tiles of 2000 edges and
   multiplies each of the three rows by its own 64-row block of the first layer's weights; the reference
   joins the rows into 192 channels and multiplies once: a sum over 192 = 64 + 64 + 64 indices is the sum
   of the three sums. The kernel's sigmoid is one operation, the reference's is 1 / (1 + exp (-x)) written
   out: one function on the extended reals. No law used here needs the inputs finite.
   The frames of the two kernel programs are the generated ones; the reference's frame is its run with
   the result dropped; the idealization rewrote nothing, so it is preserved trivially. -/
import proofs.«116071_j87522843558205_1_alg».proof.Defs
import proofs.«116071_j87522843558205_1_alg».proof.Proof.Gen.Kernel
import proofs.«116071_j87522843558205_1_alg».proof.Proof.Gen.Kernel.Skeleton
import proofs.«116071_j87522843558205_1_alg».proof.Proof.Gen.Kernel.Launch
import proofs.«116071_j87522843558205_1_alg».proof.Proof.Gen.Kernel.Points
import proofs.«116071_j87522843558205_1_alg».proof.Proof.Gen.Kernel.Frame
import proofs.«116071_j87522843558205_1_alg».proof.Proof.Gen.KernelIdeal
import proofs.«116071_j87522843558205_1_alg».proof.Proof.Gen.KernelIdeal.Skeleton
import proofs.«116071_j87522843558205_1_alg».proof.Proof.Gen.KernelIdeal.Launch
import proofs.«116071_j87522843558205_1_alg».proof.Proof.Gen.KernelIdeal.Points
import proofs.«116071_j87522843558205_1_alg».proof.Proof.Gen.KernelIdeal.Frame
import proofs.«116071_j87522843558205_1_alg».proof.Proof.Gen.ReferenceIdeal
import proofs.«116071_j87522843558205_1_alg».proof.Proof.Gen.Pre_finite_inputs
import proofs.«116071_j87522843558205_1_alg».proof.Proof.Gen.ReferenceIdeal.Run
import proofs.«116071_j87522843558205_1_alg».proof.Proof.Gen.ReferenceIdeal.Read
import proofs.«116071_j87522843558205_1_alg».proof.Proof.Agreement
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, Agreement.algebraic⟩

end Cert.Proof

end
